-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x64 : Shape := ⟨2, ![16384, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel

variable [Facts]

def fn {F : FTy → Type} [FloatOps F] (main_arg0 : FVec F S16384x64 .f32) (main_arg1 : FVec F S16384x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S16384x64 .f32 := Host.absf main_arg1
  let main_cst_0 : FVec F S_ .f32 := constant S_ .f32 0x7F800000#32
  let main_v5 : FVec F S16384x64 .f32 := broadcastInDim S16384x64 ![] bcast_S_S16384x64 main_cst_0
  let main_v6 : IVec S16384x64 1 := cmpf .olt main_v4 main_v5
  let main_c_1 : IVec S_ 1 := constantI S_ 1 1#1
  let main_v7 : IVec S_ 1 := (fun x v => Host.reduce IntOp.andi x v reducesTo_S16384x64_S_d0_1 h_S_) main_v6 main_c_1
  let main_v8 : IVec S_ 1 := andi main_v3 main_v7
  main_v8
-- ==== Kernel.lean ====
abbrev S16384x64 : Shape := ⟨2, ![16384, 64]⟩
abbrev S16384x1 : Shape := ⟨2, ![16384, 1]⟩
abbrev S512x64 : Shape := ⟨2, ![512, 64]⟩
abbrev S2048x64 : Shape := ⟨2, ![2048, 64]⟩
abbrev S512x1 : Shape := ⟨2, ![512, 1]⟩
abbrev S512 : Shape := ⟨1, ![512]⟩
abbrev S2048 : Shape := ⟨1, ![2048]⟩
abbrev S2048x1 : Shape := ⟨2, ![2048, 1]⟩
abbrev S1x2048 : Shape := ⟨2, ![1, 2048]⟩
abbrev S64x2048 : Shape := ⟨2, ![64, 2048]⟩
abbrev S512x2048 : Shape := ⟨2, ![512, 2048]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x1, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S2048x64, .f32⟩
  | .local _ .vmem, ⟨3, _⟩ => ⟨S2048x64, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_13 : BitVec 32 := 0#32
  let v32 : BitVec 1 := Scalar.cmpi .ne v31 c0_i32_13
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x64_S512x64_0_0 : ∀ a, (![0, 0] : Fin 2 → Nat) a + S512x64.size a ≤ S512x64.size a
  h_S512x64 : 0 < S512x64.numel
  inb_S2048x64_S2048x64_0_0 : ∀ a, (![0, 0] : Fin 2 → Nat) a + S2048x64.size a ≤ S2048x64.size a
  h_S2048x64 : 0 < S2048x64.numel
  reduces_S512x64_S512 : S512x64.Reduces [1] S512
  shapeCasts_S512_S512x1 : S512.ShapeCasts S512x1
  reduces_S2048x64_S2048 : S2048x64.Reduces [1] S2048
  shapeCasts_S2048_S2048x1 : S2048.ShapeCasts S2048x1
  transposes_S2048x1_p1_0_S1x2048 : S2048x1.Transposes [1, 0] S1x2048
  transposes_S2048x64_p1_0_S64x2048 : S2048x64.Transposes [1, 0] S64x2048
  broadcasts_S512x1_S512x2048 : S512x1.Broadcasts S512x2048
  broadcasts_S1x2048_S512x2048 : S1x2048.Broadcasts S512x2048
  reduces_S512x2048_S512 : S512x2048.Reduces [1] S512
  reducesTo_S16384x1_S_d0_1 : S16384x1.ReducesTo [0, 1] S_
  h_S_ : 0 < S_.numel
  dot_S512x64_S64x2048_S512x2048_1_0_0_1_n_n_wf : DotDims.WF S512x64 S64x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x64.size a ≤ S16384x64.size a
  hwx0_0 : ∀ i : grid0.Coords, EltTy.bits .f32 = 32 ∨ (Rect.block (s := S16384x64) S512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S16384x64.size a
  hwx0_1 : ∀ i : grid0.Coords, EltTy.bits .f32 = 32 ∨ (Rect.block (s := S16384x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S16384x1.size a
  hwx0_2 : ∀ i : grid0.Coords, EltTy.bits .f32 = 32 ∨ (Rect.block (s := S16384x1) S512x1.size (cc0_transform_2 i) (hinb0_2 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf

abbrev win0_0 : Pipeline.Window sig grid0 :=
  Pipeline.Window.ofSpec (Memref.whole main_arg1) S512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S64x16384 : Shape := ⟨2, ![64, 16384]⟩
abbrev S16384x16384 : Shape := ⟨2, ![16384, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S16384x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x64, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S1x16384, .f32⟩
  | .hbm, ⟨11, _⟩ => ⟨S64x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S16384x16384, .f32⟩
  | .hbm, ⟨16, _⟩ => ⟨S_, .f32⟩
  | .hbm, ⟨17, _⟩ => ⟨S16384x16384, .f32⟩
  | .hbm, ⟨18, _⟩ => ⟨S16384x16384, .f32⟩
  | .hbm, ⟨19, _⟩ => ⟨S16384x16384, .f32⟩
  | .hbm, ⟨20, _⟩ => ⟨S_, .f32⟩
  | .hbm, ⟨21, _⟩ => ⟨S16384x16384, .f32⟩
  | .hbm, ⟨22, _⟩ => ⟨S16384x16384, .f32⟩
  | .hbm, ⟨23, _⟩ => ⟨S16384x16384, .f32⟩
  | .hbm, ⟨24, _⟩ => ⟨S_, .f32⟩
  | .hbm, ⟨25, _⟩ => ⟨S16384, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩

abbrev nD : Nat := 1
abbrev τ : Topo := Topo.v7x

variable {F : FTy → Type} [FloatOps F]

class Facts₀ : Prop where
  reducesTo_S16384x64_S16384_d1 : S16384x64.ReducesTo [1] S16384
  h_S_ : 0 < S_.numel
  bcast_S16384_S16384x1_0 : S16384.BroadcastsInDim S16384x1 (![0] : Fin 1 → Fin S16384x1.rank)
  transposes_S16384x1_S1x16384_1_0 : S16384x1.Transposes [1, 0] S1x16384
  transposes_S16384x64_S64x16384_1_0 : S16384x64.Transposes [1, 0] S64x16384
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  reducesTo_S16384_S_d0 : S16384.ReducesTo [0] S_
  dot_S16384x64_S64x16384_S16384x16384_1_0_0_1_n_n_wf : DotDims.WF S16384x64 S64x16384 S16384x16384 [1] [0] [0] [1] [] []

variable [Facts₀]

def dot_S16384x64_S64x16384_S16384x16384_1_0_0_1_n_n : DotDims S16384x64 S64x16384 S16384x16384 where
  lhsContracting := [1]
  rhsContracting := [0]
  lhsNonContracting := [0]
  rhsNonContracting := [1]
  lhsBatch := []
  rhsBatch := []
  wf := dot_S16384x64_S64x16384_S16384x16384_1_0_0_1_n_n_wf

class Facts : Prop extends Facts₀ where

variable [Facts]
-- ==== Proof.Pieces.lean ====
/-
  What each control case of the kernel body leaves in the carried scratch column and in the output block, as values.

  The body keeps a column of 512 running minima.  At the first column block of a row block it first fills the column
  with +∞; at every point it then replaces the column by the entrywise minimum of the column and the block's row
  minima (the second payload); at the last column block it copies the column into the output block.
  So whatever the case, the column ends at the second payload of the two input blocks and the column as it stood
  (the +∞ fill, in the first case), and in the last case the output block ends at the same value.
-/
import proofs.«146014_j52467320488009_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every access of the body starts at the origin of its buffer. -/
theorem hz : (![0, 0] : Fin 2 → Nat) = fun _ => 0 := funext fun a => by fin_cases a <;> rfl

/-- First column block: the column is filled with +∞, read back, and met with the block's row minima. -/
theorem scratch_A (c : Dev nD) (i : grid0.Coords) (a2 : Memref sig .tc .vmem S512x64 .f32) (h2 : a2.IsWhole)
    (a3 : Memref sig .tc .vmem S2048x64 .f32) (h3 : a3.IsWhole) (a4 : Memref sig .tc .vmem S512x1 .f32) (h4 : a4.IsWhole)
    (a5 : Memref sig .tc .vmem S512x1 .f32) (h5 : a5.IsWhole) (hc0 : cond0_0 i) (hc1 : ¬cond0_1 i)
    (x0 : Vec F S512x64 .f32) (x1 : Vec F S2048x64 .f32) :
    sout0_A_0 c i a2 h2 a3 h3 a4 h4 a5 h5 hc0 hc1 x0 x1 = k0_pay2 x0 x1 (k0_pay1 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S512x1) hz]
  simp only [View.readAt_eq_ld, h2.read_unread, h3.read_unread, h5.read_unread, View.ld_unit_zero (S := S512x64) hz,
    View.ld_unit_zero (S := S2048x64) hz, View.ld_unit_zero (S := S512x1) hz, View.readCov_unit_zero (S := S512x1) _ hz]

/-- A middle column block: the column, holding `xs`, is met with the block's row minima. -/
theorem scratch_B (c : Dev nD) (i : grid0.Coords) (a2 : Memref sig .tc .vmem S512x64 .f32) (h2 : a2.IsWhole)
    (a3 : Memref sig .tc .vmem S2048x64 .f32) (h3 : a3.IsWhole) (a4 : Memref sig .tc .vmem S512x1 .f32) (h4 : a4.IsWhole)
    (a5 : Memref sig .tc .vmem S512x1 .f32) (h5 : a5.IsWhole) (hc0 : ¬cond0_0 i) (hc1 : ¬cond0_1 i)
    (x0 : Vec F S512x64 .f32) (x1 : Vec F S2048x64 .f32) (xs : Vec F S512x1 .f32) :
    sout0_B_0 c i a2 h2 a3 h3 a4 h4 a5 h5 hc0 hc1 x0 x1 xs = k0_pay2 x0 x1 xs := by
  unfold sout0_B_0
  rw [View.read_writes_eq_canon _ _ _ (scover0_B_0 c i a2 h2 a3 h3 a4 h4 a5 h5 hc0 hc1 x0 x1 xs)]
  unfold kernelRun0_B
  dsimp only
  sl_unfold_words
  rw [View.canon_unit_zero (S := S512x1) hz]
  simp only [View.readAt_eq_ld, h2.read_unread, h3.read_unread, h5.read_unread, View.ld_unit_zero (S := S512x64) hz,
    View.ld_unit_zero (S := S2048x64) hz, View.ld_unit_zero (S := S512x1) hz, View.readCov_unit_zero (S := S512x1) _ hz]

/-- The last column block leaves the column the same way … -/
theorem scratch_C (c : Dev nD) (i : grid0.Coords) (a2 : Memref sig .tc .vmem S512x64 .f32) (h2 : a2.IsWhole)
    (a3 : Memref sig .tc .vmem S2048x64 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x64 .f32) (x1 : Vec F S2048x64 .f32) (xs : Vec F S512x1 .f32) :
    sout0_C_0 c i a2 h2 a3 h3 a4 h4 a5 h5 hc0 hc1 x0 x1 xs = k0_pay2 x0 x1 xs := by
  unfold sout0_C_0
  rw [View.read_writes_eq_canon _ _ _ (scover0_C_0 c i a2 h2 a3 h3 a4 h4 a5 h5 hc0 hc1 x0 x1 xs)]
  unfold kernelRun0_C
  dsimp only
  sl_unfold_words
  rw [View.canon_unit_zero (S := S512x1) hz]
  simp only [View.readAt_eq_ld, h2.read_unread, h3.read_unread, h5.read_unread, View.ld_unit_zero (S := S512x64) hz,
    View.ld_unit_zero (S := S2048x64) hz, View.ld_unit_zero (S := S512x1) hz, View.readCov_unit_zero (S := S512x1) _ hz]

/-- … and copies it into the output block. -/
theorem out_C (c : Dev nD) (i : grid0.Coords) (a2 : Memref sig .tc .vmem S512x64 .f32) (h2 : a2.IsWhole)
    (a3 : Memref sig .tc .vmem S2048x64 .f32) (h3 : a3.IsWhole) (a4 : Memref sig .tc .vmem S512x1 .f32) (h4 : a4.IsWhole)
    (a5 : Memref sig .tc .vmem S512x1 .f32) (h5 : a5.IsWhole) (hc0 : ¬cond0_0 i) (hc1 : cond0_1 i)
    (x0 : Vec F S512x64 .f32) (x1 : Vec F S2048x64 .f32) (xs : Vec F S512x1 .f32) :
    out0_C_2 c i a2 h2 a3 h3 a4 h4 a5 h5 hc0 hc1 x0 x1 xs = k0_pay2 x0 x1 xs := by
  unfold out0_C_2
  rw [View.read_writes_eq_canon _ _ _ (cover0_C_2 c i a2 h2 a3 h3 a4 h4 a5 h5 hc0 hc1 x0 x1 xs)]
  unfold kernelRun0_C
  dsimp only
  sl_unfold_words
  rw [View.canon_unit_zero (S := S512x1) hz]
  simp only [View.readAt_eq_ld, h2.read_unread, h3.read_unread, h5.read_unread, View.ld_unit_zero (S := S512x64) hz,
    View.ld_unit_zero (S := S2048x64) hz, View.ld_unit_zero (S := S512x1) hz, View.readCov_unit_zero (S := S512x1) _ hz]

end Cert.KernelIdeal.Pieces

end
-- ==== Proof.Spec.lean ====
/-
  The mathematics of the inverted generational distance, over the extended reals.

  For two row arrays `a : [n, 64]` and `b : [m, 64]` the distance of row `r` of `a` to row `c` of `b` is taken
  through the expansion  ‖a_r‖² + ‖b_c‖² − 2 · ⟨a_r, b_c⟩,  clipped below at zero, then the square root.
  `rowMin a b r` is the least such distance over all rows of `b`, started from the word of +∞;
  the result is the mean over `r` of these minima.  A minimum over all columns is reached block by block:
  `minBelow a b r N` is the minimum over the columns below `N`, and one more block of columns extends it
  (`minBelow_step`), because a value lies below a minimum exactly when it lies below every term.
-/
import Idealize.ShloMosaic.PureOps.Ideal
import Idealize.ShloMosaic.PureOps.Ideal.Laws
import Idealize.ShloMosaic.Lib.ValueIdx
import Mathlib.Data.Finset.Fold

noncomputable section

open scoped BigOperators

namespace Cert.Igd

open Idealize.ShloMosaic Idealize.ShloMosaic.ValueIdx

/-- An array of `n` rows of 64 numbers. -/
abbrev Rows (n : ℕ) : Type := FVec Ideal (⟨2, ![n, 64]⟩ : Shape) .f32

/-- The squared norm of row `r`. -/
def sqn {n : ℕ} (a : Rows n) (r : Fin n) : EReal := ∑ k : Fin 64, a (ix2 r k) * a (ix2 r k)

/-- The inner product of row `r` of `a` with row `c` of `b`. -/
def dot {n m : ℕ} (a : Rows n) (b : Rows m) (r : Fin n) (c : Fin m) : EReal :=
  ∑ k : Fin 64, a (ix2 r k) * b (ix2 c k)

/-- The number the word of `2.0` denotes. -/
def two : EReal := Ideal.ofBits .f32 0x40000000#32

/-- The number the word of `0.0` denotes (it is zero; the two programs carry the same word, which is never evaluated). -/
def zero : EReal := Ideal.ofBits .f32 0x00000000#32

/-- The word of +∞, from which every minimum starts. -/
def inf : EReal := Ideal.ofBits .f32 0x7F800000#32

/-- The distance of row `r` of `a` to row `c` of `b`, through the expansion of the square. -/
def dist {n m : ℕ} (a : Rows n) (b : Rows m) (r : Fin n) (c : Fin m) : EReal :=
  Ideal.sqrt (max (sqn a r + sqn b c - two * dot a b r c) zero)

/-- The least distance of row `r` of `a` to a row of `b`. -/
def rowMin {n m : ℕ} (a : Rows n) (b : Rows m) (r : Fin n) : EReal :=
  (Finset.univ : Finset (Fin m)).fold min inf (fun c => dist a b r c)

/-- The least distance of row `r` of `a` to the rows of `b` below `N`. -/
def minBelow {n m : ℕ} (a : Rows n) (b : Rows m) (r : Fin n) (N : ℕ) : EReal :=
  (Finset.univ.filter fun c : Fin m => c.val < N).fold min inf (fun c => dist a b r c)

/-- The mean over the 16384 rows of `a` of the least distances, as the two programs take it: the sum from the zero word,
    divided by the word of 16384. -/
def igd (a b : Rows 16384) : EReal :=
  Ideal.div (zero + ∑ r : Fin 16384, rowMin a b r) (Ideal.ofBits .f32 0x46800000#32)

/-- Rows that agree entry by entry have the same distance. -/
theorem dist_congr {n m n' m' : ℕ} (a : Rows n) (b : Rows m) (a' : Rows n') (b' : Rows m')
    (r : Fin n) (c : Fin m) (r' : Fin n') (c' : Fin m')
    (ha : ∀ k : Fin 64, a' (ix2 r' k) = a (ix2 r k)) (hb : ∀ k : Fin 64, b' (ix2 c' k) = b (ix2 c k)) :
    dist a' b' r' c' = dist a b r c := by
  unfold dist sqn dot
  simp only [ha, hb]

/-- Below no column the minimum is its starting value. -/
theorem minBelow_zero {n m : ℕ} (a : Rows n) (b : Rows m) (r : Fin n) : minBelow a b r 0 = inf := by
  unfold minBelow
  rw [Finset.filter_false_of_mem (fun c _ => Nat.not_lt_zero _), Finset.fold_empty]

/-- Below every column it is the row's minimum. -/
theorem minBelow_all {n m : ℕ} (a : Rows n) (b : Rows m) (r : Fin n) (N : ℕ) (hN : m ≤ N) :
    minBelow a b r N = rowMin a b r := by
  unfold minBelow rowMin
  rw [Finset.filter_true_of_mem (fun c _ => lt_of_lt_of_le c.isLt hN)]

/-- ONE MORE BLOCK: the minimum below `w · j`, met with the minimum over the block of `w` columns that starts
    there, is the minimum below `w · (j + 1)`. A value is below a minimum exactly when it is below every term,
    and a column below `w · (j + 1)` is either below `w · j` or in the block. -/
theorem minBelow_step {n m : ℕ} (a : Rows n) (b : Rows m) (r : Fin n) (w j : ℕ) (hw : w * (j + 1) ≤ m)
    (g : Fin w → EReal)
    (hg : ∀ q : Fin w, g q = dist a b r ⟨w * j + q.val, by have := q.isLt; nlinarith⟩) :
    min (minBelow a b r (w * j)) ((Finset.univ : Finset (Fin w)).fold min inf g) = minBelow a b r (w * (j + 1)) := by
  refine eq_of_forall_le_iff fun z => ?_
  unfold minBelow
  simp only [le_min_iff, Finset.le_fold_min, Finset.mem_filter, Finset.mem_univ, true_and, forall_true_left]
  constructor
  · rintro ⟨⟨hz, h1⟩, _, h2⟩
    refine ⟨hz, fun c hc => ?_⟩
    by_cases hlt : c.val < w * j
    · exact h1 c hlt
    · have hq : c.val - w * j < w := by
        have : w * (j + 1) = w * j + w := by ring
        omega
      have := h2 ⟨c.val - w * j, hq⟩
      rw [hg] at this
      have hc' : (⟨w * j + (c.val - w * j), by omega⟩ : Fin m) = c := Fin.ext (by simp only; omega)
      rwa [hc'] at this
  · rintro ⟨hz, h⟩
    refine ⟨⟨hz, fun c hc => h c (lt_of_lt_of_le hc (Nat.mul_le_mul_left w (Nat.le_succ j)))⟩, hz, fun q => ?_⟩
    rw [hg]
    refine h _ ?_
    have : w * (j + 1) = w * j + w := by ring
    have := q.isLt
    simp only
    omega

end Cert.Igd

end
-- ==== Proof.LibKeepdims.lean ====
/-
  Keep-dims columns and row reductions read at an index, at any extents.

  A vector of `a` numbers viewed as a column `[a, 1]`; a column `[a, 1]` repeated along `b` columns; a reduction of a
  matrix `[a, b]` along its rows' entries (axis 1) read at row `p` as a fold over the row's `b` entries:
  the index inserted on the reduced axis is `(p, q)`.  At the extended reals the minimum commutes and associates,
  so a `multi_reduction <minimumf>` along axis 1 and the host's `reduce … minimum` along axis 1 are both the fold of
  `min` from the initial value over the row.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value

noncomputable section

namespace Cert.LibKeepdims

open Idealize.ShloMosaic Idealize.ShloMosaic.ValueIdx

variable {α : Type}

/-- An `[a]` vector cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Along axis 1 of a matrix, the index over row `p` with entry `q` inserted is `(p, q)`. -/
theorem lift_axis1 {a b : ℕ} (h : (⟨2, ![a, b]⟩ : Shape).Reduces [1] ⟨1, ![a]⟩) (p : Fin a) (q : Fin b) :
    h.lift (ix1 p) q = ix2 p q :=
  funext fun c => Fin.ext (by match c with | ⟨0, _⟩ => rfl | ⟨1, _⟩ => rfl)

/-- A `vector.multi_reduction <minimumf>` of a matrix along axis 1, at the extended reals and at row `p`: the fold of
    `min` from the accumulator's value over the row's entries. -/
theorem multiReduction_minimumf_axis1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun q => src (ix2 p q)) := by
  rw [multiReduction_minimumf_eq_fold]
  refine (h.fold_filter_drop_single _ _ src (ix1 p)).trans ?_
  have e : (fun q : Fin b => src (h.lift (ix1 p) q)) = fun q : Fin b => src (ix2 p q) :=
    funext fun q => congrArg src (lift_axis1 h p q)
  exact congrArg (fun g : Fin b → Ideal φ => (Finset.univ : Finset (Fin b)).fold min (Ideal.ofBits φ acc) g) e

/-- The host's `reduce … minimum` of a matrix along axis 1, at the extended reals and at row `p`: the same fold, from
    the initial value's one element. -/
theorem hostReduce_minimumf_axis1 {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.minimumf (F := Ideal) (φ := φ)) x init h' hu (ix1 p)
      = (Finset.univ : Finset (Fin b)).fold min (init (Shape.Idx.first hu)) (fun q => x (ix2 p q)) := by
  refine (Host.reduce_eq_fold_single _ x init h' h hu (ix1 p)).trans ?_
  have e : (fun q : Fin b => x (h.lift (ix1 p) q)) = fun q : Fin b => x (ix2 p q) :=
    funext fun q => congrArg x (lift_axis1 h p q)
  exact congrArg (fun g : Fin b → Ideal φ => (Finset.univ : Finset (Fin b)).fold min (init (Shape.Idx.first hu)) g) e

/-- A `vector.multi_reduction <add>` of a matrix along axis 1, at the extended reals and at row `p`: the sum of the row. -/
theorem multiReduction_add_axis1 {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ q : Fin b, src (ix2 p q) := by
  refine (Ideal.multiReduction_add_single src acc h hφ hacc (ix1 p)).trans ?_
  exact Finset.sum_congr rfl fun q _ => congrArg src (lift_axis1 h p q)

/-- A sum over the indices of a column `[n, 1]` is the sum over its rows. -/
theorem sum_idx_col {M : Type*} [AddCommMonoid M] {n : ℕ} (f : (⟨2, ![n, 1]⟩ : Shape).Idx → M) :
    ∑ i, f i = ∑ r : Fin n, f (ix2 r (0 : Fin 1)) := by
  rw [sum_idx2]
  exact Finset.sum_congr rfl fun r _ => Fin.sum_univ_one _

/-- A rank-1 index set is its one coordinate's range. -/
def idxEquiv1 {n : ℕ} : (⟨1, ![n]⟩ : Shape).Idx ≃ Fin n where
  toFun i := i 0
  invFun p := ix1 p
  left_inv i := (eq_ix1 i).symm
  right_inv _ := rfl

/-- A sum over the indices of a vector `[n]` is the sum over its entries. -/
theorem sum_idx1 {M : Type*} [AddCommMonoid M] {n : ℕ} (f : (⟨1, ![n]⟩ : Shape).Idx → M) :
    ∑ i, f i = ∑ r : Fin n, f (ix1 r) := by
  rw [← Equiv.sum_comp (idxEquiv1 (n := n)).symm f]
  rfl

end Cert.LibKeepdims

end
-- ==== Proof.PayloadAt.lean ====
/-
  The body's two payloads read at an entry, over the extended reals.

  The first payload is the column of +∞.  The second, at row `p`, is the minimum of the column's entry and the least
  distance of row `p` of the first block to the rows of the second block: the row sums of squares are broadcast along
  rows and columns, the matrix product against the transposed block is the table of inner products, and the row
  reduction with `minimumf` from +∞ is the fold of `min` over the row.
-/
import proofs.«146014_j52467320488009_1_alg».proof.Proof.Gen.KernelIdeal.Skeleton
import proofs.«146014_j52467320488009_1_alg».proof.Proof.Spec
import proofs.«146014_j52467320488009_1_alg».proof.Proof.LibKeepdims
import Idealize.ShloMosaic.Lib.ValueLayout
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Payload

open Cert.KernelIdeal Cert.KernelIdeal.Gen Cert.LibKeepdims

/-! ## The matrix product's operand indices -/

theorem lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The product of the first block with the transposed second block, into zero, at `(p, q)`: the inner product of
    row `p` with row `q`. -/
theorem cross_apply (v3 : FVec Ideal S512x64 .f32) (v4 : FVec Ideal S2048x64 .f32)
    (ht : S2048x64.Transposes [1, 0] S64x2048) (p : Fin 512) (q : Fin 2048) :
    matmul dot_S512x64_S64x2048_S512x2048_1_0_0_1_n_n none v3 (transpose S64x2048 [1, 0] v4 ht) (constant (F := Ideal) S512x2048 .f32 0x00000000#32) (ix2 p q)
      = Igd.dot v3 v4 p q := by
  simp only [matmul]
  rw [Ideal.matmul_constant_zero_apply, ← Equiv.sum_comp (contrEquiv1 dot_S512x64_S64x2048_S512x2048_1_0_0_1_n_n 64 rfl rfl).symm]
  unfold Igd.dot
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 p q) ((contrEquiv1 dot_S512x64_S64x2048_S512x2048_1_0_0_1_n_n 64 rfl rfl).symm k) = ix2 p k := funext fun a => Fin.ext (by
    match a with
    | ⟨0, _⟩ => exact lhs_0 _ _
    | ⟨1, _⟩ => exact (lhs_1 _ _).trans hk)
  have er : dot_S512x64_S64x2048_S512x2048_1_0_0_1_n_n.rhsIdx (ix2 p q) ((contrEquiv1 dot_S512x64_S64x2048_S512x2048_1_0_0_1_n_n 64 rfl rfl).symm k) = ix2 k q := funext fun a => Fin.ext (by
    match a with
    | ⟨0, _⟩ => exact (rhs_0 _ _).trans hk
    | ⟨1, _⟩ => exact rhs_1 _ _)
  rw [el, er, transpose_ix2_apply]

/-- The table of distances the body forms from the two blocks, at `(p, q)`. -/
theorem dist_apply (v3 : FVec Ideal S512x64 .f32) (v4 : FVec Ideal S2048x64 .f32)
    (hr1 : S512x64.Reduces [1] S512) (hc1 : S512.ShapeCasts S512x1)
    (hr2 : S2048x64.Reduces [1] S2048) (hc2 : S2048.ShapeCasts S2048x1)
    (ht1 : S2048x1.Transposes [1, 0] S1x2048) (ht2 : S2048x64.Transposes [1, 0] S64x2048)
    (hb1 : S512x1.Broadcasts S512x2048) (hb2 : S1x2048.Broadcasts S512x2048)
    (hφ : FKind.Formats .f32) (hacc : (0x00000000#32 : BitVec 32) = FKind.add.neutral .f32 hφ)
    (p : Fin 512) (q : Fin 2048) :
    sqrt (maximumf (subf (addf
        (broadcastTo S512x2048 (shapeCast S512x1 (multiReduction .add [1] S512 (mulf v3 v3) 0x00000000#32 hr1 hφ hacc) hc1) hb1)
        (broadcastTo S512x2048 (transpose S1x2048 [1, 0] (shapeCast S2048x1 (multiReduction .add [1] S2048 (mulf v4 v4) 0x00000000#32 hr2 hφ hacc) hc2) ht1) hb2))
        (mulf (broadcast S512x2048 (Scalar.ofBits (F := Ideal) .f32 0x40000000#32))
          (matmul dot_S512x64_S64x2048_S512x2048_1_0_0_1_n_n none v3 (transpose S64x2048 [1, 0] v4 ht2) (constant (F := Ideal) S512x2048 .f32 0x00000000#32))))
        (broadcast S512x2048 (Scalar.ofBits (F := Ideal) .f32 0x00000000#32))) (ix2 p q)
      = Igd.dist v3 v4 p q := by
  have e1 : broadcastTo S512x2048 (shapeCast S512x1 (multiReduction .add [1] S512 (mulf v3 v3) 0x00000000#32 hr1 hφ hacc) hc1) hb1 (ix2 p q)
      = Igd.sqn v3 p := by
    refine (broadcastTo_a1_ab_apply _ hb1 p q).trans ?_
    refine (shapeCast_a_a1_apply _ hc1 p 0).trans ?_
    exact multiReduction_add_axis1 _ _ hr1 hφ hacc p
  have e2 : broadcastTo S512x2048 (transpose S1x2048 [1, 0] (shapeCast S2048x1 (multiReduction .add [1] S2048 (mulf v4 v4) 0x00000000#32 hr2 hφ hacc) hc2) ht1) hb2 (ix2 p q)
      = Igd.sqn v4 q := by
    refine (broadcastTo_1b_ab_apply _ hb2 p q).trans ?_
    refine (transpose_ix2_apply _ ht1 (0 : Fin 1) q).trans ?_
    refine (shapeCast_a_a1_apply _ hc2 q 0).trans ?_
    exact multiReduction_add_axis1 _ _ hr2 hφ hacc q
  have e3 := cross_apply v3 v4 ht2 p q
  unfold Igd.dist Igd.two Igd.zero
  rw [← e1, ← e2, ← e3]
  rfl

/-! ## The payloads -/

/-- The first payload is +∞ everywhere. -/
theorem pay1_apply (p : Fin 512) (u : Fin 1) : (k0_pay1 (F := Ideal)) (ix2 p u) = Igd.inf := by
  unfold k0_pay1
  rw [shapeCast_self]
  rfl

/-- The second payload at row `p`: the column's entry met with the least distance of row `p` of the first block
    to the rows of the second. -/
theorem pay2_apply (v3 : FVec Ideal S512x64 .f32) (v4 : FVec Ideal S2048x64 .f32) (v25 : FVec Ideal S512x1 .f32)
    (p : Fin 512) (u : Fin 1) :
    k0_pay2 v3 v4 v25 (ix2 p u) = min (v25 (ix2 p u)) (Igd.rowMin v3 v4 p) := by
  unfold k0_pay2
  rw [shapeCast_self]
  refine (minimumf_apply _ _ _).trans (congrArg (min _) ?_)
  refine (shapeCast_a_a1_apply _ _ p u).trans ?_
  refine (multiReduction_minimumf_axis1 _ _ _ _ _ p).trans ?_
  unfold Igd.rowMin
  refine congrArg (fun g : Fin 2048 → EReal => (Finset.univ : Finset (Fin 2048)).fold min Igd.inf g) (funext fun q => ?_)
  exact dist_apply v3 v4 _ _ _ _ _ _ _ _ _ _ p q

end Cert.KernelIdeal.Payload

end
-- ==== Proof.KernelValue.lean ====
/-
  The kernel's result: the column of row minima the region leaves, then the mean the host takes of it.

  The grid has 32 row blocks of 512 rows of the front by 8 column blocks of 2048 rows of the candidate set; point `t`
  works on row block `t / 8` and column block `t % 8`.  After point `t` the carried column holds, at entry `p`, the
  least distance of row `512 · (t / 8) + p` to the candidate rows below `2048 · (t % 8 + 1)`: the first column block
  starts from +∞, every later one extends the minimum by one block (induction on the point).  At the last column
  block all 16384 candidate rows are below the bound, the column is copied to the output block and written back to
  rows `512 · (t / 8) …` of the result column; these 32 blocks tile the column.  The host then sums the column from
  the zero word and divides by the word of 16384.
-/
import proofs.«146014_j52467320488009_1_alg».proof.Proof.Gen.KernelIdeal.Frame
import proofs.«146014_j52467320488009_1_alg».proof.Proof.Pieces
import proofs.«146014_j52467320488009_1_alg».proof.Proof.PayloadAt
import proofs.«146014_j52467320488009_1_alg».proof.Proof.Spec
import proofs.«146014_j52467320488009_1_alg».proof.Proof.LibKeepdims
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.LibKeepdims

variable (m : (ℓ : Loc nD τ sig) → Buf (Elt Ideal) ℓ) (ρ : Dev nD → PrngReg)

/-- The reference front (the kernel's first operand) and the candidate set (its second), as the region finds them. -/
abbrev front (c : Dev nD) : Igd.Rows 16384 := m ((c : Thread nD τ).loc main_arg1)
abbrev cand (c : Dev nD) : Igd.Rows 16384 := m ((c : Thread nD τ).loc main_arg0)
/-- Their blocks at a point. -/
abbrev frontBlk (c : Dev nD) (t : Fin cfg0.N) : FVec Ideal S512x64 .f32 := iblk m c 0 t
abbrev candBlk (c : Dev nD) (t : Fin cfg0.N) : FVec Ideal S2048x64 .f32 := iblk m c 1 t

/-- The printed index maps, decided over the grid: the front's and the result's block index is `t / 8`, the
    candidate set's `t % 8`. -/
theorem idx_facts : ∀ t : Fin cfg0.N, win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Row `p` of the front's block at `t`, as a row of the front. -/
abbrev rowOf (t : Fin cfg0.N) (p : Fin 512) : Fin 16384 := ⟨512 * (t.val / 8) + p.val, by
  have h := t.isLt; have hN : cfg0.N = 256 := N_0; have := p.isLt; omega⟩
/-- Row `q` of the candidate block at `t`, as a row of the candidate set. -/
abbrev colOf (t : Fin cfg0.N) (q : Fin 2048) : Fin 16384 := ⟨2048 * (t.val % 8) + q.val, by have := q.isLt; omega⟩

theorem frontBlk_apply (c : Dev nD) (t : Fin cfg0.N) (p : Fin 512) (k : Fin 64) :
    frontBlk m c t (ix2 p k) = front m c (ix2 (rowOf t p) k) := by
  show iblk m c 0 t (ix2 p k) = _
  unfold iblk
  rw [View.read_apply]
  show V m c main_arg1 _ = m (c.tc.loc main_arg1) _
  rw [V_main_arg1]
  congr 1
  obtain ⟨e0, e1, -⟩ := idx_facts t
  funext a
  apply Fin.ext
  match a with
  | ⟨0, _⟩ => show win0_0.index t (0 : Fin 2) * 512 + 1 * p.val = 512 * (t.val / 8) + p.val; rw [e0]; omega
  | ⟨1, _⟩ => show win0_0.index t (1 : Fin 2) * 64 + 1 * k.val = k.val; rw [e1]; omega

theorem candBlk_apply (c : Dev nD) (t : Fin cfg0.N) (q : Fin 2048) (k : Fin 64) :
    candBlk m c t (ix2 q k) = cand m c (ix2 (colOf t q) k) := by
  show iblk m c 1 t (ix2 q k) = _
  unfold iblk
  rw [View.read_apply]
  show V m c main_arg0 _ = m (c.tc.loc main_arg0) _
  rw [V_main_arg0]
  congr 1
  obtain ⟨-, -, e2, e3, -⟩ := idx_facts t
  funext a
  apply Fin.ext
  match a with
  | ⟨0, _⟩ => show win0_1.index t (0 : Fin 2) * 2048 + 1 * q.val = 2048 * (t.val % 8) + q.val; rw [e2]; omega
  | ⟨1, _⟩ => show win0_1.index t (1 : Fin 2) * 64 + 1 * k.val = k.val; rw [e3]; omega

/-- One point's work on one entry of the column: the minimum below the point's column block, met with the block's
    row minimum, is the minimum below the next column block. -/
theorem step (c : Dev nD) (t : Fin cfg0.N) (p : Fin 512) (prev : EReal)
    (hprev : prev = Igd.minBelow (front m c) (cand m c) (rowOf t p) (2048 * (t.val % 8))) :
    min prev (Igd.rowMin (frontBlk m c t) (candBlk m c t) p)
      = Igd.minBelow (front m c) (cand m c) (rowOf t p) (2048 * (t.val % 8 + 1)) := by
  rw [hprev]
  have hw : 2048 * (t.val % 8 + 1) ≤ 16384 := by omega
  unfold Igd.rowMin
  exact Igd.minBelow_step (front m c) (cand m c) (rowOf t p) 2048 (t.val % 8) hw
    (fun q => Igd.dist (frontBlk m c t) (candBlk m c t) p q)
    (fun q => Igd.dist_congr (front m c) (cand m c) (frontBlk m c t) (candBlk m c t) (rowOf t p) (colOf t q) p q
      (fun k => frontBlk_apply m c t p k) (fun k => candBlk_apply m c t q k))

/-! ## The carried column, point by point -/

/-- At the first column block of a row block the column starts from +∞. -/
theorem col_first (c : Dev nD) (t : Fin cfg0.N) (h0 : t.val % 8 = 0) (p : Fin 512) (u : Fin 1) :
    (outsAt0 m c t.val t.isLt).2 (ix2 p u)
      = Igd.minBelow (front m c) (cand m c) (rowOf t p) (2048 * (t.val % 8 + 1)) := by
  have h1 : ¬t.val % 8 = 7 := by omega
  rw [outsAt0_A m c t h0 h1]
  dsimp only
  refine (congrFun (Pieces.scratch_A (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (iblk m c 0 t) (iblk m c 1 t)) (ix2 p u)).trans ?_
  refine (Payload.pay2_apply (frontBlk m c t) (candBlk m c t) (k0_pay1 (F := Ideal)) p u).trans ?_
  refine step m c t p _ ((Payload.pay1_apply p u).trans ?_)
  rw [h0, Nat.mul_zero]
  exact (Igd.minBelow_zero _ _ _).symm

/-- At a later column block it extends what the point before left. -/
theorem col_next (c : Dev nD) (t : Fin cfg0.N) (h0 : ¬t.val % 8 = 0) (p : Fin 512) (u : Fin 1)
    (ih : (outsAt0 m c (t.val - 1) (Nat.lt_of_le_of_lt (Nat.sub_le _ _) t.isLt)).2 (ix2 p u)
      = Igd.minBelow (front m c) (cand m c) (rowOf t p) (2048 * (t.val % 8))) :
    (outsAt0 m c t.val t.isLt).2 (ix2 p u)
      = Igd.minBelow (front m c) (cand m c) (rowOf t p) (2048 * (t.val % 8 + 1)) := by
  by_cases h1 : t.val % 8 = 7
  · rw [outsAt0_C m c t h0 h1]
    dsimp only
    refine (congrFun (Pieces.scratch_C (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2) (ix2 p u)).trans ?_
    refine (Payload.pay2_apply (frontBlk m c t) (candBlk m c t) _ p u).trans ?_
    exact step m c t p _ ih
  · rw [outsAt0_B m c t h0 h1]
    dsimp only
    refine (congrFun (Pieces.scratch_B (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2) (ix2 p u)).trans ?_
    refine (Payload.pay2_apply (frontBlk m c t) (candBlk m c t) _ p u).trans ?_
    exact step m c t p _ ih

/-- THE INVARIANT: after point `n` the column's entry `p` is the least distance of row `512 · (n / 8) + p` of the front
    to the candidate rows below `2048 · (n % 8 + 1)` — by induction on the point. -/
theorem col_eq (c : Dev nD) : ∀ (n : ℕ) (h : n < cfg0.N) (p : Fin 512) (u : Fin 1),
    (outsAt0 m c n h).2 (ix2 p u)
      = Igd.minBelow (front m c) (cand m c) (rowOf ⟨n, h⟩ p) (2048 * (n % 8 + 1)) := by
  intro n
  induction n with
  | zero => intro h p u; exact col_first m c ⟨0, h⟩ rfl p u
  | succ n ih =>
    intro h p u
    by_cases h0 : (n + 1) % 8 = 0
    · exact col_first m c ⟨n + 1, h⟩ h0 p u
    · refine col_next m c ⟨n + 1, h⟩ h0 p u ((ih (Nat.lt_of_succ_lt h) p u).trans ?_)
      have e1 : rowOf ⟨n, Nat.lt_of_succ_lt h⟩ p = rowOf ⟨n + 1, h⟩ p := Fin.ext (by
        show 512 * (n / 8) + p.val = 512 * ((n + 1) / 8) + p.val
        omega)
      have e2 : n % 8 + 1 = (n + 1) % 8 := by omega
      rw [e1, e2]

/-- At a last column block the output block's entry `p` is the row's minimum over the whole candidate set. -/
theorem out_last (c : Dev nD) (t : Fin cfg0.N) (h1 : t.val % 8 = 7) (p : Fin 512) (u : Fin 1) :
    (outsAt0 m c t.val t.isLt).1 (ix2 p u) = Igd.rowMin (front m c) (cand m c) (rowOf t p) := by
  have h0 : ¬t.val % 8 = 0 := by omega
  have hpos : t.val - 1 + 1 = t.val := by omega
  rw [outsAt0_C m c t h0 h1]
  dsimp only
  refine (congrFun (Pieces.out_C (F := Ideal) c (grid0.coords t) (ms0_0 t) (hs0_0 t) (ms0_1 t) (hs0_1 t) (ms0_2 t) (hs0_2 t)
    scM0_0 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2) (ix2 p u)).trans ?_
  refine (Payload.pay2_apply (frontBlk m c t) (candBlk m c t) _ p u).trans ?_
  refine (step m c t p _ ((col_eq m c (t.val - 1) _ p u).trans ?_)).trans ?_
  · have e1 : rowOf ⟨t.val - 1, Nat.lt_of_le_of_lt (Nat.sub_le _ _) t.isLt⟩ p = rowOf t p := Fin.ext (by
      show 512 * ((t.val - 1) / 8) + p.val = 512 * (t.val / 8) + p.val
      omega)
    have e2 : (t.val - 1) % 8 + 1 = t.val % 8 := by omega
    rw [e1, e2]
  · exact Igd.minBelow_all _ _ _ _ (by omega)

/-! ## The result column -/

/-- What the result column ends holding: at row `r`, the least distance of row `r` of the front to the candidate set. -/
abbrev column (c : Dev nD) : Buf (Elt Ideal) ((c : Thread nD τ).loc main_v0) :=
  fun i : S16384x1.Idx => Igd.rowMin (front m c) (cand m c) ⟨(i 0).val, (i 0).isLt⟩

/-- A last column block writes back block `t / 8` of that column. -/
theorem flushed_eq (c : Dev nD) (t : Fin cfg0.N) (hf : (cfg0.win 2).flush t = true) :
    (dats m 0 c).flushed 2 t = ((cfg0.win 2).blk t).view.read (Elt Ideal) (column m c) := by
  have h7 : t.val % 8 = 7 := (flush0_2 t).mp hf
  show (cfg0.win 2).cut (grid0.coords t) ((dats m 0 c).after 2 t) = _
  rw [after0_2]
  obtain ⟨-, -, -, -, e4, e5⟩ := idx_facts t
  have key : ∀ (p : Fin 512) (u : Fin 1),
      (outsAt0 m c t.val t.isLt).1 (ix2 p u) = column m c (((cfg0.win 2).blk t).view.emb (ix2 p u)) := by
    intro p u
    rw [out_last m c t h7 p u]
    refine congrArg (Igd.rowMin (front m c) (cand m c)) (Fin.ext ?_)
    show 512 * (t.val / 8) + p.val = win0_2.index t (0 : Fin 2) * 512 + 1 * p.val
    rw [e4]; omega
  generalize (outsAt0 m c t.val t.isLt).1 = X at key ⊢
  generalize column m c = G at key ⊢
  refine funext fun (j : S512x1.Idx) => ?_
  show X j = G (((cfg0.win 2).blk t).view.emb j)
  obtain ⟨p, u, rfl⟩ : ∃ (p : Fin 512) (u : Fin 1), j = ix2 p u := ⟨j 0, j 1, eq_ix2 j⟩
  exact key p u

/-- An index of the column is in point `t`'s block iff each coordinate is in the block's range. -/
theorem mem_blk (t : Fin cfg0.N) (i : S16384x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0).slice (win0_2.rect t)).set ↔ _
  rw [View.set_slice_whole, Rect.mem_set_unit]
  exact Iff.rfl

/-- The 32 written blocks tile the column, so it ends at `column`. -/
theorem final (c : Dev nD) : (dats m 0 c).arrAt 2 cfg0.N = column m c :=
  (dats m 0 c).arrAt_eq_of_cover 2 (column m c) (flushed_eq m c) fun i => by
    have hi0 : (i 0).val < 16384 := (i 0).isLt
    have hi1 : (i 1).val < 1 := (i 1).isLt
    have hN : cfg0.N = 256 := N_0
    have ht : 8 * ((i 0).val / 512) + 7 < cfg0.N := by omega
    obtain ⟨-, -, -, -, e4, e5⟩ := idx_facts ⟨8 * ((i 0).val / 512) + 7, ht⟩
    refine ⟨⟨8 * ((i 0).val / 512) + 7, ht⟩, (flush0_2 _).mpr (by show (8 * ((i 0).val / 512) + 7) % 8 = 7; omega), ?_⟩
    rw [mem_blk]
    intro a
    match a with
    | ⟨0, _⟩ =>
      show win0_2.index ⟨8 * ((i 0).val / 512) + 7, ht⟩ (0 : Fin 2) * 512 ≤ (i 0).val ∧ (i 0).val < win0_2.index ⟨8 * ((i 0).val / 512) + 7, ht⟩ (0 : Fin 2) * 512 + 512
      rw [e4]
      show (8 * ((i 0).val / 512) + 7) / 8 * 512 ≤ (i 0).val ∧ (i 0).val < (8 * ((i 0).val / 512) + 7) / 8 * 512 + 512
      omega
    | ⟨1, _⟩ =>
      show win0_2.index ⟨8 * ((i 0).val / 512) + 7, ht⟩ (1 : Fin 2) * 1 ≤ (i 1).val ∧ (i 1).val < win0_2.index ⟨8 * ((i 0).val / 512) + 7, ht⟩ (1 : Fin 2) * 1 + 1
      rw [e5]
      omega

/-! ## The host's mean of the column -/

/-- The two host operations after the region, as one function of the column. -/
def tail (v : FVec Ideal S16384x1 .f32) : FVec Ideal S_ .f32 :=
  Host.divf (F := Ideal) (Host.reduceAdd (F := Ideal) v (constant (F := Ideal) S_ .f32 0x00000000#32) reducesTo_S16384x1_S_d0_1 h_S_)
    (constant (F := Ideal) S_ .f32 0x46800000#32)

/-- The sum over both axes of a column is the sum of its entries, from the zero word; then the quotient. -/
theorem tail_apply (v : FVec Ideal S16384x1 .f32) (g : Fin 16384 → EReal) (hv : ∀ r, v (ix2 r (0 : Fin 1)) = g r)
    (i : S_.Idx) : tail v i = Ideal.div (Igd.zero + ∑ r : Fin 16384, g r) (Ideal.ofBits .f32 0x46800000#32) := by
  unfold tail
  show FloatOps.hostDivf (Host.reduceAdd (F := Ideal) v (constant (F := Ideal) S_ .f32 0x00000000#32) reducesTo_S16384x1_S_d0_1 h_S_ i)
    (constant (F := Ideal) S_ .f32 0x46800000#32 i) = _
  simp only [Host.reduceAdd, Ideal.hostReduceAdd_def, Ideal.hostDivf_def]
  rw [Ideal.hostReduceAdd_total reducesTo_S16384x1_S_d0_1 (fun b => b.elim0) v _ i, sum_idx_col]
  simp only [hv]
  rfl

/-- What the host leaves in the result buffer: the mean of the row minima. -/
theorem tail_val (c : Dev nD) :
    Pipeline.afterTail₀ cfgs (dats m) 0 (V0 m) [hostOps1] c main_v2 = fun _ => Igd.igd (front m c) (cand m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = column m c :=
    (Pipeline.withArrays_arr spec0 launch0.win.arr_inj c _ _ 2).trans (final m c)
  rw [e]
  funext i
  refine (tail_apply (column m c) (Igd.rowMin (front m c) (cand m c)) (fun r => congrArg (Igd.rowMin (front m c) (cand m c)) (Fin.ext rfl)) i).trans ?_
  rfl

/-- The result buffer is none of the pipeline's arrays. -/
theorem main_v2_rest : main_v2 ∈ Pipeline.restRefs sig (cfgs 0).spec :=
  Pipeline.mem_restRefs_of main_v2 rfl (by decide : ∀ w : Fin 3, ((cfgs 0).spec w).arr.view.ref ≠ main_v2)

/-- THE RUN, READ: every weakly fair execution ends with the result buffer at the mean of the row minima of the two
    argument arrays, and the arguments unchanged. -/
theorem run : θ_run defs (onTc (τ := τ) (main (F := Ideal))) ⟨m, fun _ => 0, ρ⟩ fun r => ∀ c : Dev nD,
      r.2.mem ((c.tc : Thread nD τ).loc main_v2) = (fun _ => Igd.igd (front m c) (cand m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 main_v2_rest).trans (tail_val m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c)))⟩)
    (run_main m ρ)

end Cert.KernelIdeal.KValue

end
-- ==== Proof.RefValue.lean ====
/-
  The reference's result is the mean of the row minima.

  Read one operation at a time, the reference forms for every pair of rows `(r, c)` the same distance as the
  specification — the two row sums of squares broadcast along the table, twice the table of inner products taken
  away, the clip at zero, the square root —, takes each row's minimum from +∞ (a fold of `min` over the row), sums
  the 16384 minima from the zero word and divides by the word of 16384.
-/
import proofs.«146014_j52467320488009_1_alg».proof.Proof.Gen.ReferenceIdeal.Run
import proofs.«146014_j52467320488009_1_alg».proof.Proof.Gen.ReferenceIdeal.Read
import proofs.«146014_j52467320488009_1_alg».proof.Proof.Spec
import proofs.«146014_j52467320488009_1_alg».proof.Proof.LibKeepdims

noncomputable section

open Idealize.ShloMosaic Idealize.ShloMosaic.ValueIdx

namespace Cert.ReferenceIdeal.RefValue

open Cert.ReferenceIdeal Cert.ReferenceIdeal.Gen Cert.ReferenceIdeal.Read Cert.LibKeepdims

/-! ## The composed index maps are the plain coordinates -/

theorem idx_sq1 (r c : Fin 16384) (k : Fin 64) :
    idx_main_v1 (idx_main_v2 (idx_main_v9 (ix2 r c))) k = ix2 r k :=
  funext fun a => Fin.ext (by match a with | ⟨0, _⟩ => rfl | ⟨1, _⟩ => rfl)
theorem idx_sq0 (r c : Fin 16384) (k : Fin 64) :
    idx_main_v4 (idx_main_v5 (idx_main_v6 (idx_main_v10 (ix2 r c)))) k = ix2 c k :=
  funext fun a => Fin.ext (by match a with | ⟨0, _⟩ => rfl | ⟨1, _⟩ => rfl)
theorem idx_l (r c : Fin 16384) (k : Fin 64) : lidx_main_v8 (ix2 r c) k = ix2 r k :=
  funext fun a => Fin.ext (by match a with | ⟨0, _⟩ => rfl | ⟨1, _⟩ => rfl)
theorem idx_r (r c : Fin 16384) (k : Fin 64) : idx_main_v7 (ridx_main_v8 (ix2 r c) k) = ix2 c k :=
  funext fun a => Fin.ext (by match a with | ⟨0, _⟩ => rfl | ⟨1, _⟩ => rfl)

/-- The table of distances at `(r, c)`: row `r` of the second argument against row `c` of the first. -/
theorem dist_apply (x0 x1 : FVec Ideal S16384x64 .f32) (r c : Fin 16384) :
    val_main_v17 (F := Ideal) x0 x1 (ix2 r c) = Igd.dist x1 x0 r c := by
  rw [val_main_v17_apply, val_main_v16_apply, val_main_v14_apply, val_main_v11_apply, val_main_v13_apply,
    val_main_v9_apply, val_main_v2_apply, val_main_v1_apply, val_main_v10_apply, val_main_v6_apply, val_main_v5_apply,
    val_main_v4_apply, val_main_v12_apply, val_main_cst_1_apply, val_main_v8_apply, val_main_v15_apply,
    val_main_cst_2_apply, val_main_cst_apply, val_main_cst_0_apply]
  simp only [val_main_v0_apply, val_main_v3_apply, val_main_v7_apply, idx_sq1, idx_sq0, idx_l, idx_r,
    Ideal.hostUnary_sqrt_def, Ideal.maximumf_def, Ideal.subf_def, Ideal.addf_def, Ideal.mulf_def, Ideal.ofBits_def,
    Igd.dist, Igd.sqn, Igd.dot, Igd.two, Igd.zero, Ideal.ofBits_zero_f32, zero_add]

/-- Each row's minimum. -/
theorem rowMin_apply (x0 x1 : FVec Ideal S16384x64 .f32) (r : Fin 16384) :
    val_main_v18 (F := Ideal) x0 x1 (ix1 r) = Igd.rowMin x1 x0 r := by
  unfold val_main_v18
  refine (hostReduce_minimumf_axis1 (val_main_v17 (F := Ideal) x0 x1) (val_main_cst_3 (F := Ideal))
    reducesTo_S16384x16384_S16384_d1 (by decide) h_S_ r).trans ?_
  unfold Igd.rowMin
  have e : (fun q : Fin 16384 => val_main_v17 (F := Ideal) x0 x1 (ix2 r q)) = fun c : Fin 16384 => Igd.dist x1 x0 r c :=
    funext fun q => dist_apply x0 x1 r q
  rw [e]
  rfl

/-- The sum of the minima from the zero word. -/
theorem sum_apply (x0 x1 : FVec Ideal S16384x64 .f32) (i : S_.Idx) :
    val_main_v19 (F := Ideal) x0 x1 i = Igd.zero + ∑ r : Fin 16384, Igd.rowMin x1 x0 r := by
  rw [val_main_v19_apply, sum_idx1]
  refine congrArg₂ (· + ·) rfl (Finset.sum_congr rfl fun r _ => rowMin_apply x0 x1 r)

/-- THE REFERENCE'S RESULT: its one entry is the mean of the row minima. -/
theorem result_apply (x0 x1 : FVec Ideal S16384x64 .f32) (i : S_.Idx) :
    val_main_v20 (F := Ideal) x0 x1 i = Igd.igd x1 x0 := by
  rw [val_main_v20_apply, sum_apply]
  rfl

end Cert.ReferenceIdeal.RefValue

end
-- ==== Proof.lean ====
/-
  The certificate's claim: the three frames, the (empty) idealization ledger, and the equality of the kernel's and the
  reference's results over the extended reals.

  Both idealized programs end with their result buffer at the mean, over the 16384 rows of the reference front, of
  each row's least distance to the candidate set: the kernel reaches every row's minimum one block of 2048 candidate
  rows at a time and the host averages the column it leaves; the reference takes each row's minimum over the whole
  table at once.  A minimum taken block by block is the minimum over all, so the two results are one number.
-/
import proofs.«146014_j52467320488009_1_alg».proof.Defs
import proofs.«146014_j52467320488009_1_alg».proof.Proof.Gen.Kernel
import proofs.«146014_j52467320488009_1_alg».proof.Proof.Gen.Kernel.Skeleton
import proofs.«146014_j52467320488009_1_alg».proof.Proof.Gen.Kernel.Launch
import proofs.«146014_j52467320488009_1_alg».proof.Proof.Gen.Kernel.Points
import proofs.«146014_j52467320488009_1_alg».proof.Proof.Gen.Kernel.Frame
import proofs.«146014_j52467320488009_1_alg».proof.Proof.Gen.KernelIdeal
import proofs.«146014_j52467320488009_1_alg».proof.Proof.Gen.KernelIdeal.Skeleton
import proofs.«146014_j52467320488009_1_alg».proof.Proof.Gen.KernelIdeal.Launch
import proofs.«146014_j52467320488009_1_alg».proof.Proof.Gen.KernelIdeal.Points
import proofs.«146014_j52467320488009_1_alg».proof.Proof.Gen.KernelIdeal.Frame
import proofs.«146014_j52467320488009_1_alg».proof.Proof.Gen.ReferenceIdeal
import proofs.«146014_j52467320488009_1_alg».proof.Proof.Gen.ReferenceIdeal.Run
import proofs.«146014_j52467320488009_1_alg».proof.Proof.Gen.ReferenceIdeal.Read
import proofs.«146014_j52467320488009_1_alg».proof.Proof.Gen.Pre_finite_inputs
import proofs.«146014_j52467320488009_1_alg».proof.Proof.KernelValue
import proofs.«146014_j52467320488009_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end at the mean of the row minima. -/
theorem algebraic : Cert.algebraic_KernelIdeal_ReferenceIdeal := by
  intro m ρ m' ρ' _ hagree
  refine ⟨fun c => fun _ => Cert.Igd.igd (Cert.KernelIdeal.KValue.front m c) (Cert.KernelIdeal.KValue.cand m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, (hagree c).1, (hagree c).2]
  funext i
  exact Cert.ReferenceIdeal.RefValue.result_apply _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
